-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000x16 : Shape := ⟨2, ![100000, 16]⟩
abbrev S16x32 : Shape := ⟨2, ![16, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S16 .f32) (main_arg6 : FVec F S16x1 .f32) (main_arg7 : FVec F S1 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg6
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : IVec S2x1600000 32) (main_arg1 : FVec F S100000x16 .f32) (main_arg2 : FVec F S16x32 .f32) (main_arg3 : FVec F S32 .f32) (main_arg4 : FVec F S32x16 .f32) (main_arg5 : FVec F S16 .f32) (main_arg6 : FVec F S16x1 .f32) (main_arg7 : FVec F S1 .f32) : IVec S_ 1 :=
  let main_v0 : FVec F S100000x16 .f32 := Host.absf main_arg1
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_arg6 main_arg7 main_v13 main_v16
-- ==== Kernel.lean ====
abbrev S2x1600000 : Shape := ⟨2, ![2, 1600000]⟩
abbrev S100000x16 : Shape := ⟨2, ![100000, 16]⟩
abbrev S16x32 : Shape := ⟨2, ![16, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S10000x16 : Shape := ⟨2, ![10000, 16]⟩
abbrev S10000x32 : Shape := ⟨2, ![10000, 32]⟩
abbrev S1700000x32 : Shape := ⟨2, ![1700000, 32]⟩
abbrev S1x32 : Shape := ⟨2, ![1, 32]⟩
abbrev S1700000x16 : Shape := ⟨2, ![1700000, 16]⟩
abbrev S1x16 : Shape := ⟨2, ![1, 16]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 92
  | .vmem => 18
  | .smem => 0
  | _ => 0

abbrev bufTy : (tb : Table) → Fin (tcTables nBuf tb) → BufTy
  | .hbm, ⟨0, _⟩ => ⟨S2x1600000, .i32⟩
  | .hbm, ⟨1, _⟩ => ⟨S100000x16, .f32⟩
  | .hbm, ⟨2, _⟩ => ⟨S16x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S100000, .f32⟩
  | .hbm, ⟨17, _⟩ => ⟨S_, .i32⟩
  | .hbm, ⟨18, _⟩ => ⟨S1700000, .i32⟩
  | .hbm, ⟨19, _⟩ => ⟨S1700000, .i1⟩
  | .hbm, ⟨20, _⟩ => ⟨S_, .i32⟩
  | .hbm, ⟨21, _⟩ => ⟨S1700000, .i32⟩
  | .hbm, ⟨22, _⟩ => ⟨S1700000, .i32⟩
  | .hbm, ⟨23, _⟩ => ⟨S1700000, .i32⟩
  | .hbm, ⟨24, _⟩ => ⟨S1700000x1, .i32⟩
  | .hbm, ⟨25, _⟩ => ⟨S_, .f32⟩
  | .hbm, ⟨26, _⟩ => ⟨S1700000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S1700000x1, .f32⟩
  | .hbm, ⟨56, _⟩ => ⟨S100000x32, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x32, .f32⟩
  | .hbm, ⟨66, _⟩ => ⟨S1700000x32, .f32⟩
  | .hbm, ⟨67, _⟩ => ⟨S1700000x32, .f32⟩
  | .hbm, ⟨68, _⟩ => ⟨S_, .f32⟩
  | .hbm, ⟨69, _⟩ => ⟨S100000x32, .f32⟩
  | .hbm, ⟨70, _⟩ => ⟨S1700000x1, .i32⟩
  | .hbm, ⟨71, _⟩ => ⟨S100000x32, .f32⟩
  | .hbm, ⟨72, _⟩ => ⟨S1x32, .f32⟩
  | .hbm, ⟨73, _⟩ => ⟨S100000x16, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x16, .f32⟩
  | .hbm, ⟨83, _⟩ => ⟨S1700000x16, .f32⟩
  | .hbm, ⟨84, _⟩ => ⟨S1700000x16, .f32⟩
  | .hbm, ⟨85, _⟩ => ⟨S_, .f32⟩
  | .hbm, ⟨86, _⟩ => ⟨S100000x16, .f32⟩
  | .hbm, ⟨87, _⟩ => ⟨S1700000x1, .i32⟩
  | .hbm, ⟨88, _⟩ => ⟨S100000x16, .f32⟩
  | .hbm, ⟨89, _⟩ => ⟨S1x16, .f32⟩
  | .hbm, ⟨90, _⟩ => ⟨S1x1, .f32⟩
  | .hbm, ⟨91, _⟩ => ⟨S100000x1, .f32⟩
  | .local _ .vmem, ⟨0, _⟩ => ⟨S10000x16, .f32⟩
  | .local _ .vmem, ⟨1, _⟩ => ⟨S10000x16, .f32⟩
  | .local _ .vmem, ⟨2, _⟩ => ⟨S16x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S16x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S1_S1x1 : S1.ShapeCasts S1x1
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x16_S16x32_S10000x32_1_0_0_1_n_n_wf : DotDims.WF S10000x16 S16x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x16_S10000x16_1_0_0_1_n_n_wf : DotDims.WF S10000x32 S32x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x1.size a ≤ S16x1.size a
  hwx2_2 : ∀ i : grid2.Coords, EltTy.bits .f32 = 32 ∨ (Rect.block (s := S16x1) S16x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S100000x1.size a
  hwx2_4 : ∀ i : grid2.Coords, EltTy.bits .f32 = 32 ∨ (Rect.block (s := S100000x1) S10000x1.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_arg1) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S16x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S10000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S2x1600000 : Shape := ⟨2, ![2, 1600000]⟩
abbrev S100000x16 : Shape := ⟨2, ![100000, 16]⟩
abbrev S16x32 : Shape := ⟨2, ![16, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1700000x32 : Shape := ⟨2, ![1700000, 32]⟩
abbrev S1x32 : Shape := ⟨2, ![1, 32]⟩
abbrev S1700000x16 : Shape := ⟨2, ![1700000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 145
  | .vmem => 0
  | .smem => 0
  | _ => 0

abbrev hbmTy0_0 (i : Nat) : BufTy := match i % 128 with
  | 0 => ⟨S2x1600000, .i32⟩
  | 1 => ⟨S100000x16, .f32⟩
  | 2 => ⟨S16x32, .f32⟩
  | 3 => ⟨S32, .f32⟩
  | 4 => ⟨S32x16, .f32⟩
  | 5 => ⟨S16, .f32⟩
  | 6 => ⟨S16x1, .f32⟩
  | 7 => ⟨S1, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S100000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S_, .f32⟩
  | 26 => ⟨S1700000, .f32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S100000x32, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x32, .f32⟩
  | 65 => ⟨S1700000x1, .f32⟩
  | 66 => ⟨S1700000x32, .f32⟩
  | 67 => ⟨S1700000x32, .f32⟩
  | 68 => ⟨S_, .f32⟩
  | 69 => ⟨S100000x32, .f32⟩
  | 70 => ⟨S1700000x1, .i32⟩
  | 71 => ⟨S100000x32, .f32⟩
  | 72 => ⟨S1x32, .f32⟩
  | 73 => ⟨S100000x32, .f32⟩
  | 74 => ⟨S100000x32, .f32⟩
  | 75 => ⟨S_, .f32⟩
  | 76 => ⟨S100000x32, .f32⟩
  | 77 => ⟨S100000x32, .f32⟩
  | 78 => ⟨S_, .f32⟩
  | 79 => ⟨S100000, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S_, .f32⟩
  | 89 => ⟨S1700000, .f32⟩
  | 90 => ⟨S100000, .f32⟩
  | 91 => ⟨S_, .f32⟩
  | 92 => ⟨S100000, .f32⟩
  | 93 => ⟨S100000, .i1⟩
  | 94 => ⟨S100000, .f32⟩
  | 95 => ⟨S_, .f32⟩
  | 96 => ⟨S_, .f32⟩
  | 97 => ⟨S100000, .f32⟩
  | 98 => ⟨S100000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000, .f32⟩
  | 117 => ⟨S1700000, .f32⟩
  | 118 => ⟨S100000x16, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000x16, .f32⟩
  | _ => ⟨S2x1600000, .i32⟩

abbrev hbmTy0_1 (i : Nat) : BufTy := match i % 128 with
  | 0 => ⟨S1700000x1, .f32⟩
  | 1 => ⟨S1700000x16, .f32⟩
  | 2 => ⟨S1700000x16, .f32⟩
  | 3 => ⟨S_, .f32⟩
  | 4 => ⟨S100000x16, .f32⟩
  | 5 => ⟨S1700000x1, .i32⟩
  | 6 => ⟨S100000x16, .f32⟩
  | 7 => ⟨S1x16, .f32⟩
  | 8 => ⟨S100000x16, .f32⟩
  | 9 => ⟨S100000x16, .f32⟩
  | 10 => ⟨S_, .f32⟩
  | 11 => ⟨S100000x16, .f32⟩
  | 12 => ⟨S100000x16, .f32⟩
  | 13 => ⟨S100000x1, .f32⟩
  | 14 => ⟨S1x1, .f32⟩
  | 15 => ⟨S100000x1, .f32⟩
  | 16 => ⟨S100000x1, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_v60 : Ref sig .tc := ⟨.hbm, 89, rfl⟩
abbrev main_v61 : Ref sig .tc := ⟨.hbm, 90, rfl⟩
abbrev main_cst_15 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_16 : Ref sig .tc := ⟨.hbm, 95, rfl⟩
abbrev main_call2_v0 : Ref sig .tc := ⟨.hbm, 96, rfl⟩
abbrev main_call2_v1 : Ref sig .tc := ⟨.hbm, 97, rfl⟩
abbrev main_v65 : Ref sig .tc := ⟨.hbm, 98, rfl⟩
abbrev main_c_17 : Ref sig .tc := ⟨.hbm, 99, rfl⟩
abbrev main_v66 : Ref sig .tc := ⟨.hbm, 100, rfl⟩
abbrev main_v67 : Ref sig .tc := ⟨.hbm, 101, rfl⟩
abbrev main_c_18 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_19 : Ref sig .tc := ⟨.hbm, 108, rfl⟩
abbrev main_v73 : Ref sig .tc := ⟨.hbm, 109, rfl⟩
abbrev main_v74 : Ref sig .tc := ⟨.hbm, 110, rfl⟩
abbrev main_c_20 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_21 : Ref sig .tc := ⟨.hbm, 119, rfl⟩
abbrev main_v82 : Ref sig .tc := ⟨.hbm, 120, rfl⟩
abbrev main_v83 : Ref sig .tc := ⟨.hbm, 121, rfl⟩
abbrev main_c_22 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_23 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_call3_cst : Ref sig .tc := ⟨.hbm, 138, rfl⟩
abbrev main_call3_v0 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x16_S16x32_S100000x32_1_0_0_1_n_n_wf : DotDims.WF S100000x16 S16x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x1_S100000x1_1_0_0_1_n_n_wf : DotDims.WF S100000x16 S16x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.Spec.lean ====
/-
  What the three kernel calls compute, as functions of whole arrays over the extended reals.

  A graph-convolution layer here is "aggregate, then a dense map": the dense map of a node's feature row is a
  row-times-column sum. The first call is the plain product  (x · w)[r, j] = Σ_k x[r, k] · w[k, j].  The second
  first adds a bias row to every node's features and clamps at zero from below, then takes the product:
  Σ_k max(a[r, k] + b[0, k], 0) · w[k, j].  The third does the same and adds one more bias, a single number
  held in a one-by-one array, to every entry of the result.

  Rows are independent of one another in all three, which is why computing them ten thousand rows at a time
  gives the same array as computing them all at once.
-/
import Idealize.ShloMosaic.PureOps.Ideal
import Idealize.ShloMosaic.Lib.ValueIdx

noncomputable section

namespace Cert.Layers

open Idealize.ShloMosaic Idealize.ShloMosaic.ValueIdx

/-- The product of the node features with the first weight matrix: entry (r, j) is Σ_k x[r, k] · w[k, j]. -/
def lin0 (x : FVec Ideal ⟨2, ![100000, 16]⟩ .f32) (w : FVec Ideal ⟨2, ![16, 32]⟩ .f32) : FVec Ideal ⟨2, ![100000, 32]⟩ .f32 :=
  fun i => ∑ k : Fin 16, x (ix2 ⟨(i 0).val, idx2_lt0 i⟩ k) * w (ix2 k ⟨(i 1).val, idx2_lt1 i⟩)

/-- Bias, clamp at zero, then the product with the second weight matrix:
    entry (r, j) is Σ_k max(a[r, k] + b[0, k], 0) · w[k, j]. -/
def lin1 (a : FVec Ideal ⟨2, ![100000, 32]⟩ .f32) (b : FVec Ideal ⟨2, ![1, 32]⟩ .f32) (w : FVec Ideal ⟨2, ![32, 16]⟩ .f32) :
    FVec Ideal ⟨2, ![100000, 16]⟩ .f32 :=
  fun i => ∑ k : Fin 32, max (a (ix2 ⟨(i 0).val, idx2_lt0 i⟩ k) + b (ix2 0 k)) (Ideal.ofBits .f32 0x00000000#32)
    * w (ix2 k ⟨(i 1).val, idx2_lt1 i⟩)

/-- Bias, clamp at zero, the product with the output column, and the output bias added:
    entry (r, 0) is Σ_k max(a[r, k] + b[0, k], 0) · w[k, 0] + fb[0, 0]. -/
def lin2 (a : FVec Ideal ⟨2, ![100000, 16]⟩ .f32) (b : FVec Ideal ⟨2, ![1, 16]⟩ .f32) (w : FVec Ideal ⟨2, ![16, 1]⟩ .f32)
    (fb : FVec Ideal ⟨2, ![1, 1]⟩ .f32) : FVec Ideal ⟨2, ![100000, 1]⟩ .f32 :=
  fun i => (∑ k : Fin 16, max (a (ix2 ⟨(i 0).val, idx2_lt0 i⟩ k) + b (ix2 0 k)) (Ideal.ofBits .f32 0x00000000#32)
    * w (ix2 k ⟨(i 1).val, idx2_lt1 i⟩)) + fb (ix2 0 0)

end Cert.Layers

end
-- ==== Proof.Region0.lean ====
/-
  The first kernel call (the node features times the first weight matrix), read as a whole array.

  The call walks the node axis in ten blocks of ten thousand rows. At grid point t it reads rows
  10000·t … 10000·t + 9999 of its row-blocked input and the whole weight matrix, and writes the same rows of its output. Inside a block the body
  is nothing but a matrix product into a zero accumulator, so entry (p, q) of the block is
  Σ_k x[p, k] · w[k, q].  (The narrowing to a shorter float format on the way into the product is the identity on extended reals.)
  Row p of block t is row 10000·t + p of the array, the small operands are read whole at every point, and the ten
  blocks tile the output: the output array ends holding the whole-array function `lin0` of the input arrays.
-/
import proofs.«166586_j61933428417025_1_alg».proof.Proof.Gen.KernelIdeal.Frame
import proofs.«166586_j61933428417025_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Layer0

open Cert.KernelIdeal Cert.KernelIdeal.Gen Cert.Layers

theorem hz : (![0, 0] : Fin 2 → Nat) = fun _ => 0 := funext fun a => by fin_cases a <;> rfl

/-! ## The block product's operand indices: output entry (p, q) and contraction index k meet the left operand at (p, k)
    and the right operand at (k, q) -/

theorem lhs_ax0 (i : S10000x32.Idx) (q : dot_S10000x16_S16x32_S10000x32_1_0_0_1_n_n.contr.Idx) :
    (dot_S10000x16_S16x32_S10000x32_1_0_0_1_n_n.lhsIdx i q 0).val = (i 0).val := by
  unfold DotDims.lhsIdx
  rw [dif_neg (show ¬(0 : Fin S10000x16.rank) ∈ dot_S10000x16_S16x32_S10000x32_1_0_0_1_n_n.lhsBatch by decide), dif_pos (show (0 : Fin S10000x16.rank) ∈ dot_S10000x16_S16x32_S10000x32_1_0_0_1_n_n.lhsNonContracting by decide)]
  rfl
theorem lhs_ax1 (i : S10000x32.Idx) (q : dot_S10000x16_S16x32_S10000x32_1_0_0_1_n_n.contr.Idx) :
    (dot_S10000x16_S16x32_S10000x32_1_0_0_1_n_n.lhsIdx i q 1).val = (q ⟨0, by decide⟩).val :=
  dot_S10000x16_S16x32_S10000x32_1_0_0_1_n_n.lhsIdx_val_of_single rfl i q
theorem rhs_ax0 (i : S10000x32.Idx) (q : dot_S10000x16_S16x32_S10000x32_1_0_0_1_n_n.contr.Idx) :
    (dot_S10000x16_S16x32_S10000x32_1_0_0_1_n_n.rhsIdx i q 0).val = (q ⟨0, by decide⟩).val :=
  dot_S10000x16_S16x32_S10000x32_1_0_0_1_n_n.rhsIdx_val_of_single rfl i q
theorem rhs_ax1 (i : S10000x32.Idx) (q : dot_S10000x16_S16x32_S10000x32_1_0_0_1_n_n.contr.Idx) :
    (dot_S10000x16_S16x32_S10000x32_1_0_0_1_n_n.rhsIdx i q 1).val = (i 1).val := by
  unfold DotDims.rhsIdx
  rw [dif_neg (show ¬(1 : Fin S16x32.rank) ∈ dot_S10000x16_S16x32_S10000x32_1_0_0_1_n_n.rhsBatch by decide), dif_pos (show (1 : Fin S16x32.rank) ∈ dot_S10000x16_S16x32_S10000x32_1_0_0_1_n_n.rhsNonContracting by decide)]
  rfl

/-- The block product into a zero accumulator, entry by entry: Σ_k l[p, k] · r[k, q]. -/
theorem blockdot (l : FVec Ideal S10000x16 .bf16) (r : FVec Ideal S16x32 .bf16) (j : S10000x32.Idx) :
    matmul dot_S10000x16_S16x32_S10000x32_1_0_0_1_n_n none l r (constant S10000x32 .f32 0x00000000#32) j
      = ∑ k : Fin 16, l (ix2 ⟨(j 0).val, idx2_lt0 j⟩ k) * r (ix2 k ⟨(j 1).val, idx2_lt1 j⟩) := by
  show FloatOps.matmul dot_S10000x16_S16x32_S10000x32_1_0_0_1_n_n none l r (constant S10000x32 .f32 0x00000000#32) j = _
  rw [Ideal.matmul_constant_zero_apply, ← Equiv.sum_comp (ValueIdx.contrEquiv1 dot_S10000x16_S16x32_S10000x32_1_0_0_1_n_n 16 rfl rfl).symm]
  refine Finset.sum_congr rfl fun k _ => ?_
  have hk := ValueIdx.contrEquiv1_symm_val dot_S10000x16_S16x32_S10000x32_1_0_0_1_n_n 16 rfl rfl k
  have el : dot_S10000x16_S16x32_S10000x32_1_0_0_1_n_n.lhsIdx j ((ValueIdx.contrEquiv1 dot_S10000x16_S16x32_S10000x32_1_0_0_1_n_n 16 rfl rfl).symm k) = ix2 ⟨(j 0).val, idx2_lt0 j⟩ k := funext fun a => Fin.ext (by
    match a with
    | ⟨0, _⟩ => exact lhs_ax0 _ _
    | ⟨1, _⟩ => exact (lhs_ax1 _ _).trans hk)
  have er : dot_S10000x16_S16x32_S10000x32_1_0_0_1_n_n.rhsIdx j ((ValueIdx.contrEquiv1 dot_S10000x16_S16x32_S10000x32_1_0_0_1_n_n 16 rfl rfl).symm k) = ix2 k ⟨(j 1).val, idx2_lt1 j⟩ := funext fun a => Fin.ext (by
    match a with
    | ⟨0, _⟩ => exact (rhs_ax0 _ _).trans hk
    | ⟨1, _⟩ => exact rhs_ax1 _ _)
  rw [el, er]

/-- What the body stores, entry by entry. -/
theorem pay_eq (x0 : FVec Ideal S10000x16 .f32) (x1 : FVec Ideal S16x32 .f32) :
    k0_pay1 (F := Ideal) x0 x1 = fun j => ∑ k : Fin 16, x0 (ix2 ⟨(j 0).val, idx2_lt0 j⟩ k) * x1 (ix2 k ⟨(j 1).val, idx2_lt1 j⟩) := by
  funext j
  unfold k0_pay1
  exact blockdot _ _ j

/-! ## From blocks to the array -/

variable (V : (c : Dev nD) → (b : Ref sig .tc) → Buf (Elt Ideal) ((c : Thread nD τ).loc b))

/-- The call's input arrays as it finds them, at their literal types. -/
abbrev xin (c : Dev nD) : FVec Ideal S100000x16 .f32 := V c main_arg1
abbrev win (c : Dev nD) : FVec Ideal S16x32 .f32 := V c main_arg2

/-- The printed index maps over the grid: the row-blocked windows sit at block row t, every other window at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole-array product. -/
theorem flushed (c : Dev nD) (t : Fin cfg0.N) :
    (dat0 V c).flushed 2 t = ((cfg0.win 2).blk t).view.read (Elt Ideal) (lin0 (xin V c) (win V c)) := by
  show (cfg0.win 2).cut (grid0.coords t) ((dat0 V c).after 2 t) = _
  rw [after0_2]
  unfold out0_2
  rw [View.canon_unit_zero hz]
  simp only [View.ld_unit_zero (S := S10000x16) hz, View.ld_unit_zero (S := S16x32) hz]
  rw [pay_eq]
  obtain ⟨e0, e1, e2, e3, e4, e5⟩ := idx_facts t
  funext y
  have hy0 : (y 0).val < 10000 := (y 0).isLt
  have hy1 : (y 1).val < 32 := (y 1).isLt
  show (∑ k : Fin 16, xin V c (((cfg0.win 0).blk t).view.emb (ix2 ⟨(y 0).val, _⟩ k)) * win V c (((cfg0.win 1).blk t).view.emb (ix2 k ⟨(y 1).val, _⟩)))
    = lin0 (xin V c) (win V c) (((cfg0.win 2).blk t).view.emb y)
  unfold lin0
  refine Finset.sum_congr rfl fun k _ => ?_
  have hk : k.val < 16 := k.isLt
  have hl : ((cfg0.win 0).blk t).view.emb (ix2 ⟨(y 0).val, hy0⟩ k) = ix2 ⟨((((cfg0.win 2).blk t).view.emb y) 0).val, idx2_lt0 _⟩ k := by
    funext a; apply Fin.ext
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 16 + 1 * k.val = k.val; omega
  have hr : ((cfg0.win 1).blk t).view.emb (ix2 k ⟨(y 1).val, hy1⟩) = ix2 k ⟨((((cfg0.win 2).blk t).view.emb y) 1).val, idx2_lt1 _⟩ := by
    funext a; apply Fin.ext
    match a with
    | ⟨0, _⟩ => show win0_1.index t (0 : Fin 2) * 16 + 1 * k.val = k.val; omega
    | ⟨1, _⟩ => show win0_1.index t (1 : Fin 2) * 32 + 1 * (y 1).val = win0_2.index t (1 : Fin 2) * 32 + 1 * (y 1).val; omega
  rw [hl, hr]

/-- An index of the output array lies in point t's block iff each coordinate lies in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v36).slice (win0_2.rect t)).set ↔ _
  rw [View.set_slice_whole, Rect.mem_set_unit]
  exact Iff.rfl

/-- Row r of the output lies in the block of point r / 10000: the ten blocks tile the array. -/
theorem cover (i : S100000x32.Idx) : ∃ t : Fin cfg0.N, (cfg0.win 2).flush t = true ∧ i ∈ ((cfg0.win 2).blk t).view.set := by
  have h0 : (i 0).val < 100000 := (i 0).isLt
  have h1 : (i 1).val < 32 := (i 1).isLt
  have hN : grid0.N = 10 := N_0
  have ht : (i 0).val / 10000 < cfg0.N := by show (i 0).val / 10000 < grid0.N; omega
  refine ⟨⟨(i 0).val / 10000, ht⟩, flush0_2 _, ?_⟩
  rw [mem_blk]
  have hf := idx_facts (⟨(i 0).val / 10000, ht⟩ : Fin cfg0.N)
  intro a
  match a with
  | ⟨0, _⟩ =>
    show win0_2.index ⟨(i 0).val / 10000, ht⟩ 0 * 10000 ≤ (i 0).val ∧ (i 0).val < win0_2.index ⟨(i 0).val / 10000, ht⟩ 0 * 10000 + 10000
    rw [hf.2.2.2.2.1]; dsimp only; omega
  | ⟨1, _⟩ =>
    show win0_2.index ⟨(i 0).val / 10000, ht⟩ 1 * 32 ≤ (i 1).val ∧ (i 1).val < win0_2.index ⟨(i 0).val / 10000, ht⟩ 1 * 32 + 32
    rw [hf.2.2.2.2.2]; omega

/-- The output array after the call's last write-back. -/
theorem final (c : Dev nD) : (dat0 V c).arrAt 2 cfg0.N = lin0 (xin V c) (win V c) :=
  (dat0 V c).arrAt_eq_of_cover 2 _ (fun t _ => flushed V c t) cover

end Cert.KernelIdeal.Layer0

end
-- ==== Proof.Region1.lean ====
/-
  The second kernel call (bias, clamp at zero, times the second weight matrix), read as a whole array.

  The call walks the node axis in ten blocks of ten thousand rows. At grid point t it reads rows
  10000·t … 10000·t + 9999 of its row-blocked input, the bias row and the whole weight matrix, and writes the same rows of its output. Inside a block the body
  is the bias row added to every row, the maximum with zero, then a matrix product into a zero accumulator, so entry (p, q) of the block is
  Σ_k max(a[p, k] + b[0, k], 0) · w[k, q].  (The narrowing to a shorter float format on the way into the product is the identity on extended reals.)
  Row p of block t is row 10000·t + p of the array, the small operands are read whole at every point, and the ten
  blocks tile the output: the output array ends holding the whole-array function `lin1` of the input arrays.
-/
import proofs.«166586_j61933428417025_1_alg».proof.Proof.Gen.KernelIdeal.Frame
import proofs.«166586_j61933428417025_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Layer1

open Cert.KernelIdeal Cert.KernelIdeal.Gen Cert.Layers

theorem hz : (![0, 0] : Fin 2 → Nat) = fun _ => 0 := funext fun a => by fin_cases a <;> rfl

/-! ## The block product's operand indices: output entry (p, q) and contraction index k meet the left operand at (p, k)
    and the right operand at (k, q) -/

theorem lhs_ax0 (i : S10000x16.Idx) (q : dot_S10000x32_S32x16_S10000x16_1_0_0_1_n_n.contr.Idx) :
    (dot_S10000x32_S32x16_S10000x16_1_0_0_1_n_n.lhsIdx i q 0).val = (i 0).val := by
  unfold DotDims.lhsIdx
  rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
  rfl
theorem lhs_ax1 (i : S10000x16.Idx) (q : dot_S10000x32_S32x16_S10000x16_1_0_0_1_n_n.contr.Idx) :
    (dot_S10000x32_S32x16_S10000x16_1_0_0_1_n_n.lhsIdx i q 1).val = (q ⟨0, by decide⟩).val :=
  dot_S10000x32_S32x16_S10000x16_1_0_0_1_n_n.lhsIdx_val_of_single rfl i q
theorem rhs_ax0 (i : S10000x16.Idx) (q : dot_S10000x32_S32x16_S10000x16_1_0_0_1_n_n.contr.Idx) :
    (dot_S10000x32_S32x16_S10000x16_1_0_0_1_n_n.rhsIdx i q 0).val = (q ⟨0, by decide⟩).val :=
  dot_S10000x32_S32x16_S10000x16_1_0_0_1_n_n.rhsIdx_val_of_single rfl i q
theorem rhs_ax1 (i : S10000x16.Idx) (q : dot_S10000x32_S32x16_S10000x16_1_0_0_1_n_n.contr.Idx) :
    (dot_S10000x32_S32x16_S10000x16_1_0_0_1_n_n.rhsIdx i q 1).val = (i 1).val := by
  unfold DotDims.rhsIdx
  rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
  rfl

/-- The block product into a zero accumulator, entry by entry: Σ_k l[p, k] · r[k, q]. -/
theorem blockdot (l : FVec Ideal S10000x32 .bf16) (r : FVec Ideal S32x16 .bf16) (j : S10000x16.Idx) :
    matmul dot_S10000x32_S32x16_S10000x16_1_0_0_1_n_n none l r (constant S10000x16 .f32 0x00000000#32) j
      = ∑ k : Fin 32, l (ix2 ⟨(j 0).val, idx2_lt0 j⟩ k) * r (ix2 k ⟨(j 1).val, idx2_lt1 j⟩) := by
  show FloatOps.matmul dot_S10000x32_S32x16_S10000x16_1_0_0_1_n_n none l r (constant S10000x16 .f32 0x00000000#32) j = _
  rw [Ideal.matmul_constant_zero_apply, ← Equiv.sum_comp (ValueIdx.contrEquiv1 dot_S10000x32_S32x16_S10000x16_1_0_0_1_n_n 32 rfl rfl).symm]
  refine Finset.sum_congr rfl fun k _ => ?_
  have hk := ValueIdx.contrEquiv1_symm_val dot_S10000x32_S32x16_S10000x16_1_0_0_1_n_n 32 rfl rfl k
  have el : dot_S10000x32_S32x16_S10000x16_1_0_0_1_n_n.lhsIdx j ((ValueIdx.contrEquiv1 dot_S10000x32_S32x16_S10000x16_1_0_0_1_n_n 32 rfl rfl).symm k) = ix2 ⟨(j 0).val, idx2_lt0 j⟩ k := funext fun a => Fin.ext (by
    match a with
    | ⟨0, _⟩ => exact lhs_ax0 _ _
    | ⟨1, _⟩ => exact (lhs_ax1 _ _).trans hk)
  have er : dot_S10000x32_S32x16_S10000x16_1_0_0_1_n_n.rhsIdx j ((ValueIdx.contrEquiv1 dot_S10000x32_S32x16_S10000x16_1_0_0_1_n_n 32 rfl rfl).symm k) = ix2 k ⟨(j 1).val, idx2_lt1 j⟩ := funext fun a => Fin.ext (by
    match a with
    | ⟨0, _⟩ => exact (rhs_ax0 _ _).trans hk
    | ⟨1, _⟩ => exact rhs_ax1 _ _)
  rw [el, er]

/-- A one-row block broadcast down the rows reads its column's entry of that row. -/
theorem bias_row (b : FVec Ideal S1x32 .f32) (h : S1x32.Broadcasts S10000x32) (p : Fin 10000) (k : Fin 32) :
    broadcastTo S10000x32 b h (ix2 p k) = b (ix2 0 k) :=
  broadcastTo_apply b h (ix2 p k) (ix2 0 k) fun a => by
    match a with
    | ⟨0, _⟩ => rfl
    | ⟨1, _⟩ => rfl

/-- What the body stores, entry by entry. -/
theorem pay_eq (x0 : FVec Ideal S10000x32 .f32) (x1 : FVec Ideal S1x32 .f32) (x2 : FVec Ideal S32x16 .f32) :
    k1_pay1 (F := Ideal) x0 x1 x2 = fun j => ∑ k : Fin 32, max (x0 (ix2 ⟨(j 0).val, idx2_lt0 j⟩ k) + x1 (ix2 0 k)) (Ideal.ofBits .f32 0x00000000#32)
      * x2 (ix2 k ⟨(j 1).val, idx2_lt1 j⟩) := by
  funext j
  unfold k1_pay1
  simp only [shapeCast_self]
  refine (blockdot _ _ j).trans (Finset.sum_congr rfl fun k _ => ?_)
  show max (x0 (ix2 ⟨(j 0).val, idx2_lt0 j⟩ k) + broadcastTo S10000x32 x1 broadcasts_S1x32_S10000x32 (ix2 ⟨(j 0).val, idx2_lt0 j⟩ k)) (Ideal.ofBits .f32 0x00000000#32)
    * x2 (ix2 k ⟨(j 1).val, idx2_lt1 j⟩) = _
  rw [bias_row]

/-! ## From blocks to the array -/

variable (V : (c : Dev nD) → (b : Ref sig .tc) → Buf (Elt Ideal) ((c : Thread nD τ).loc b))

/-- The call's input arrays as it finds them, at their literal types. -/
abbrev ain (c : Dev nD) : FVec Ideal S100000x32 .f32 := V c main_v48
abbrev bin (c : Dev nD) : FVec Ideal S1x32 .f32 := V c main_v49
abbrev win (c : Dev nD) : FVec Ideal S32x16 .f32 := V c main_arg4

/-- The printed index maps over the grid: the row-blocked windows sit at block row t, every other window at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole-array layer. -/
theorem flushed (c : Dev nD) (t : Fin cfg1.N) :
    (dat1 V c).flushed 3 t = ((cfg1.win 3).blk t).view.read (Elt Ideal) (lin1 (ain V c) (bin V c) (win V c)) := by
  show (cfg1.win 3).cut (grid1.coords t) ((dat1 V c).after 3 t) = _
  rw [after1_3]
  unfold out1_3
  rw [View.canon_unit_zero hz]
  simp only [View.ld_unit_zero (S := S10000x32) hz, View.ld_unit_zero (S := S1x32) hz, View.ld_unit_zero (S := S32x16) hz]
  rw [pay_eq]
  obtain ⟨e0, e1, e2, e3, e4, e5, e6, e7⟩ := idx_facts t
  funext y
  have hy0 : (y 0).val < 10000 := (y 0).isLt
  have hy1 : (y 1).val < 16 := (y 1).isLt
  show (∑ k : Fin 32, max (ain V c (((cfg1.win 0).blk t).view.emb (ix2 ⟨(y 0).val, _⟩ k)) + bin V c (((cfg1.win 1).blk t).view.emb (ix2 0 k))) (Ideal.ofBits .f32 0x00000000#32)
      * win V c (((cfg1.win 2).blk t).view.emb (ix2 k ⟨(y 1).val, _⟩)))
    = lin1 (ain V c) (bin V c) (win V c) (((cfg1.win 3).blk t).view.emb y)
  unfold lin1
  refine Finset.sum_congr rfl fun k _ => ?_
  have hk : k.val < 32 := k.isLt
  have hl : ((cfg1.win 0).blk t).view.emb (ix2 ⟨(y 0).val, hy0⟩ k) = ix2 ⟨((((cfg1.win 3).blk t).view.emb y) 0).val, idx2_lt0 _⟩ k := by
    funext a; apply Fin.ext
    match a with
    | ⟨0, _⟩ => show win1_0.index t (0 : Fin 2) * 10000 + 1 * (y 0).val = win1_3.index t (0 : Fin 2) * 10000 + 1 * (y 0).val; omega
    | ⟨1, _⟩ => show win1_0.index t (1 : Fin 2) * 32 + 1 * k.val = k.val; omega
  have hb : ((cfg1.win 1).blk t).view.emb (ix2 0 k) = ix2 0 k := by
    funext a; apply Fin.ext
    match a with
    | ⟨0, _⟩ => show win1_1.index t (0 : Fin 2) * 1 + 1 * 0 = 0; omega
    | ⟨1, _⟩ => show win1_1.index t (1 : Fin 2) * 32 + 1 * k.val = k.val; omega
  have hr : ((cfg1.win 2).blk t).view.emb (ix2 k ⟨(y 1).val, hy1⟩) = ix2 k ⟨((((cfg1.win 3).blk t).view.emb y) 1).val, idx2_lt1 _⟩ := by
    funext a; apply Fin.ext
    match a with
    | ⟨0, _⟩ => show win1_2.index t (0 : Fin 2) * 32 + 1 * k.val = k.val; omega
    | ⟨1, _⟩ => show win1_2.index t (1 : Fin 2) * 16 + 1 * (y 1).val = win1_3.index t (1 : Fin 2) * 16 + 1 * (y 1).val; omega
  rw [hl, hb, hr]

/-- An index of the output array lies in point t's block iff each coordinate lies in the block's range on its axis. -/
theorem mem_blk (t : Fin cfg1.N) (i : S100000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v50).slice (win1_3.rect t)).set ↔ _
  rw [View.set_slice_whole, Rect.mem_set_unit]
  exact Iff.rfl

/-- Row r of the output lies in the block of point r / 10000: the ten blocks tile the array. -/
theorem cover (i : S100000x16.Idx) : ∃ t : Fin cfg1.N, (cfg1.win 3).flush t = true ∧ i ∈ ((cfg1.win 3).blk t).view.set := by
  have h0 : (i 0).val < 100000 := (i 0).isLt
  have h1 : (i 1).val < 16 := (i 1).isLt
  have hN : grid1.N = 10 := N_1
  have ht : (i 0).val / 10000 < cfg1.N := by show (i 0).val / 10000 < grid1.N; omega
  refine ⟨⟨(i 0).val / 10000, ht⟩, flush1_3 _, ?_⟩
  rw [mem_blk]
  have hf := idx_facts (⟨(i 0).val / 10000, ht⟩ : Fin cfg1.N)
  intro a
  match a with
  | ⟨0, _⟩ =>
    show win1_3.index ⟨(i 0).val / 10000, ht⟩ 0 * 10000 ≤ (i 0).val ∧ (i 0).val < win1_3.index ⟨(i 0).val / 10000, ht⟩ 0 * 10000 + 10000
    rw [hf.2.2.2.2.2.2.1]; dsimp only; omega
  | ⟨1, _⟩ =>
    show win1_3.index ⟨(i 0).val / 10000, ht⟩ 1 * 16 ≤ (i 1).val ∧ (i 1).val < win1_3.index ⟨(i 0).val / 10000, ht⟩ 1 * 16 + 16
    rw [hf.2.2.2.2.2.2.2]; omega

/-- The output array after the call's last write-back. -/
theorem final (c : Dev nD) : (dat1 V c).arrAt 3 cfg1.N = lin1 (ain V c) (bin V c) (win V c) :=
  (dat1 V c).arrAt_eq_of_cover 3 _ (fun t _ => flushed V c t) cover

end Cert.KernelIdeal.Layer1

end
-- ==== Proof.Region2.lean ====
/-
  The third kernel call (bias, clamp at zero, times the output column, plus the output bias), read as a whole array.

  The call walks the node axis in ten blocks of ten thousand rows. At grid point t it reads rows
  10000·t … 10000·t + 9999 of its row-blocked input, the bias row, the whole output column and the one-by-one output bias, and writes the same rows of its output. Inside a block the body
  is the bias row added to every row, the maximum with zero, a matrix product into a zero accumulator, so entry (p, q) of the block is
  Σ_k max(a[p, k] + b[0, k], 0) · w[k, q] + fb[0, 0], the last bias added after the product.  (The narrowing to a shorter float format on the way into the product is the identity on extended reals.)
  Row p of block t is row 10000·t + p of the array, the small operands are read whole at every point, and the ten
  blocks tile the output: the output array ends holding the whole-array function `lin2` of the input arrays.
-/
import proofs.«166586_j61933428417025_1_alg».proof.Proof.Gen.KernelIdeal.Frame
import proofs.«166586_j61933428417025_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Layer2

open Cert.KernelIdeal Cert.KernelIdeal.Gen Cert.Layers

theorem hz : (![0, 0] : Fin 2 → Nat) = fun _ => 0 := funext fun a => by fin_cases a <;> rfl

/-! ## The block product's operand indices: output entry (p, q) and contraction index k meet the left operand at (p, k)
    and the right operand at (k, q) -/

theorem lhs_ax0 (i : S10000x1.Idx) (q : dot_S10000x16_S16x1_S10000x1_1_0_0_1_n_n.contr.Idx) :
    (dot_S10000x16_S16x1_S10000x1_1_0_0_1_n_n.lhsIdx i q 0).val = (i 0).val := by
  unfold DotDims.lhsIdx
  rw [dif_neg (show ¬(0 : Fin S10000x16.rank) ∈ dot_S10000x16_S16x1_S10000x1_1_0_0_1_n_n.lhsBatch by decide), dif_pos (show (0 : Fin S10000x16.rank) ∈ dot_S10000x16_S16x1_S10000x1_1_0_0_1_n_n.lhsNonContracting by decide)]
  rfl
theorem lhs_ax1 (i : S10000x1.Idx) (q : dot_S10000x16_S16x1_S10000x1_1_0_0_1_n_n.contr.Idx) :
    (dot_S10000x16_S16x1_S10000x1_1_0_0_1_n_n.lhsIdx i q 1).val = (q ⟨0, by decide⟩).val :=
  dot_S10000x16_S16x1_S10000x1_1_0_0_1_n_n.lhsIdx_val_of_single rfl i q
theorem rhs_ax0 (i : S10000x1.Idx) (q : dot_S10000x16_S16x1_S10000x1_1_0_0_1_n_n.contr.Idx) :
    (dot_S10000x16_S16x1_S10000x1_1_0_0_1_n_n.rhsIdx i q 0).val = (q ⟨0, by decide⟩).val :=
  dot_S10000x16_S16x1_S10000x1_1_0_0_1_n_n.rhsIdx_val_of_single rfl i q
theorem rhs_ax1 (i : S10000x1.Idx) (q : dot_S10000x16_S16x1_S10000x1_1_0_0_1_n_n.contr.Idx) :
    (dot_S10000x16_S16x1_S10000x1_1_0_0_1_n_n.rhsIdx i q 1).val = (i 1).val := by
  unfold DotDims.rhsIdx
  rw [dif_neg (show ¬(1 : Fin S16x1.rank) ∈ dot_S10000x16_S16x1_S10000x1_1_0_0_1_n_n.rhsBatch by decide), dif_pos (show (1 : Fin S16x1.rank) ∈ dot_S10000x16_S16x1_S10000x1_1_0_0_1_n_n.rhsNonContracting by decide)]
  rfl

/-- The block product into a zero accumulator, entry by entry: Σ_k l[p, k] · r[k, q]. -/
theorem blockdot (l : FVec Ideal S10000x16 .bf16) (r : FVec Ideal S16x1 .bf16) (j : S10000x1.Idx) :
    matmul dot_S10000x16_S16x1_S10000x1_1_0_0_1_n_n none l r (constant S10000x1 .f32 0x00000000#32) j
      = ∑ k : Fin 16, l (ix2 ⟨(j 0).val, idx2_lt0 j⟩ k) * r (ix2 k ⟨(j 1).val, idx2_lt1 j⟩) := by
  show FloatOps.matmul dot_S10000x16_S16x1_S10000x1_1_0_0_1_n_n none l r (constant S10000x1 .f32 0x00000000#32) j = _
  rw [Ideal.matmul_constant_zero_apply, ← Equiv.sum_comp (ValueIdx.contrEquiv1 dot_S10000x16_S16x1_S10000x1_1_0_0_1_n_n 16 rfl rfl).symm]
  refine Finset.sum_congr rfl fun k _ => ?_
  have hk := ValueIdx.contrEquiv1_symm_val dot_S10000x16_S16x1_S10000x1_1_0_0_1_n_n 16 rfl rfl k
  have el : dot_S10000x16_S16x1_S10000x1_1_0_0_1_n_n.lhsIdx j ((ValueIdx.contrEquiv1 dot_S10000x16_S16x1_S10000x1_1_0_0_1_n_n 16 rfl rfl).symm k) = ix2 ⟨(j 0).val, idx2_lt0 j⟩ k := funext fun a => Fin.ext (by
    match a with
    | ⟨0, _⟩ => exact lhs_ax0 _ _
    | ⟨1, _⟩ => exact (lhs_ax1 _ _).trans hk)
  have er : dot_S10000x16_S16x1_S10000x1_1_0_0_1_n_n.rhsIdx j ((ValueIdx.contrEquiv1 dot_S10000x16_S16x1_S10000x1_1_0_0_1_n_n 16 rfl rfl).symm k) = ix2 k ⟨(j 1).val, idx2_lt1 j⟩ := funext fun a => Fin.ext (by
    match a with
    | ⟨0, _⟩ => exact (rhs_ax0 _ _).trans hk
    | ⟨1, _⟩ => exact rhs_ax1 _ _)
  rw [el, er]

/-- A one-row block broadcast down the rows reads its column's entry of that row. -/
theorem bias_row (b : FVec Ideal S1x16 .f32) (h : S1x16.Broadcasts S10000x16) (p : Fin 10000) (k : Fin 16) :
    broadcastTo S10000x16 b h (ix2 p k) = b (ix2 0 k) :=
  broadcastTo_apply b h (ix2 p k) (ix2 0 k) fun a => by
    match a with
    | ⟨0, _⟩ => rfl
    | ⟨1, _⟩ => rfl

/-- A one-by-one block broadcast over a column reads its one entry. -/
theorem bias_one (fb : FVec Ideal S1x1 .f32) (h : S1x1.Broadcasts S10000x1) (j : S10000x1.Idx) :
    broadcastTo S10000x1 fb h j = fb (ix2 0 0) :=
  broadcastTo_apply fb h j (ix2 0 0) fun a => by
    match a with
    | ⟨0, _⟩ => rfl
    | ⟨1, _⟩ => rfl

/-- What the body stores, entry by entry. -/
theorem pay_eq (x0 : FVec Ideal S10000x16 .f32) (x1 : FVec Ideal S1x16 .f32) (x2 : FVec Ideal S16x1 .f32) (x3 : FVec Ideal S1x1 .f32) :
    k2_pay1 (F := Ideal) x0 x1 x2 x3 = fun j => (∑ k : Fin 16, max (x0 (ix2 ⟨(j 0).val, idx2_lt0 j⟩ k) + x1 (ix2 0 k)) (Ideal.ofBits .f32 0x00000000#32)
      * x2 (ix2 k ⟨(j 1).val, idx2_lt1 j⟩)) + x3 (ix2 0 0) := by
  funext j
  unfold k2_pay1
  simp only [shapeCast_self]
  show matmul dot_S10000x16_S16x1_S10000x1_1_0_0_1_n_n none _ _ (constant S10000x1 .f32 0x00000000#32) j + broadcastTo S10000x1 x3 broadcasts_S1x1_S10000x1 j = _
  rw [bias_one, blockdot]
  refine congrArg (· + x3 (ix2 0 0)) (Finset.sum_congr rfl fun k _ => ?_)
  show max (x0 (ix2 ⟨(j 0).val, idx2_lt0 j⟩ k) + broadcastTo S10000x16 x1 broadcasts_S1x16_S10000x16 (ix2 ⟨(j 0).val, idx2_lt0 j⟩ k)) (Ideal.ofBits .f32 0x00000000#32)
    * x2 (ix2 k ⟨(j 1).val, idx2_lt1 j⟩) = _
  rw [bias_row]

/-! ## From blocks to the array -/

variable (V : (c : Dev nD) → (b : Ref sig .tc) → Buf (Elt Ideal) ((c : Thread nD τ).loc b))

/-- The call's input arrays as it finds them, at their literal types. -/
abbrev ain (c : Dev nD) : FVec Ideal S100000x16 .f32 := V c main_v62
abbrev bin (c : Dev nD) : FVec Ideal S1x16 .f32 := V c main_v63
abbrev win (c : Dev nD) : FVec Ideal S16x1 .f32 := V c main_arg6
abbrev fbin (c : Dev nD) : FVec Ideal S1x1 .f32 := V c main_v64

/-- The printed index maps over the grid: the row-blocked windows sit at block row t, every other window at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the whole-array layer. -/
theorem flushed (c : Dev nD) (t : Fin cfg2.N) :
    (dat2 V c).flushed 4 t = ((cfg2.win 4).blk t).view.read (Elt Ideal) (lin2 (ain V c) (bin V c) (win V c) (fbin V c)) := by
  show (cfg2.win 4).cut (grid2.coords t) ((dat2 V c).after 4 t) = _
  rw [after2_4]
  unfold out2_4
  rw [View.canon_unit_zero hz]
  simp only [View.ld_unit_zero (S := S10000x16) hz, View.ld_unit_zero (S := S1x16) hz, View.ld_unit_zero (S := S16x1) hz, View.ld_unit_zero (S := S1x1) hz]
  rw [pay_eq]
  obtain ⟨e0, e1, e2, e3, e4, e5, e6, e7, e8, e9⟩ := idx_facts t
  funext y
  have hy0 : (y 0).val < 10000 := (y 0).isLt
  have hy1 : (y 1).val < 1 := (y 1).isLt
  show (∑ k : Fin 16, max (ain V c (((cfg2.win 0).blk t).view.emb (ix2 ⟨(y 0).val, _⟩ k)) + bin V c (((cfg2.win 1).blk t).view.emb (ix2 0 k))) (Ideal.ofBits .f32 0x00000000#32)
      * win V c (((cfg2.win 2).blk t).view.emb (ix2 k ⟨(y 1).val, _⟩))) + fbin V c (((cfg2.win 3).blk t).view.emb (ix2 0 0))
    = lin2 (ain V c) (bin V c) (win V c) (fbin V c) (((cfg2.win 4).blk t).view.emb y)
  unfold lin2
  have hf : ((cfg2.win 3).blk t).view.emb (ix2 0 0) = ix2 0 0 := by
    funext a; apply Fin.ext
    match a with
    | ⟨0, _⟩ => show win2_3.index t (0 : Fin 2) * 1 + 1 * 0 = 0; omega
    | ⟨1, _⟩ => show win2_3.index t (1 : Fin 2) * 1 + 1 * 0 = 0; omega
  rw [hf]
  refine congrArg (· + fbin V c (ix2 0 0)) (Finset.sum_congr rfl fun k _ => ?_)
  have hk : k.val < 16 := k.isLt
  have hl : ((cfg2.win 0).blk t).view.emb (ix2 ⟨(y 0).val, hy0⟩ k) = ix2 ⟨((((cfg2.win 4).blk t).view.emb y) 0).val, idx2_lt0 _⟩ k := by
    funext a; apply Fin.ext
    match a with
    | ⟨0, _⟩ => show win2_0.index t (0 : Fin 2) * 10000 + 1 * (y 0).val = win2_4.index t (0 : Fin 2) * 10000 + 1 * (y 0).val; omega
    | ⟨1, _⟩ => show win2_0.index t (1 : Fin 2) * 16 + 1 * k.val = k.val; omega
  have hb : ((cfg2.win 1).blk t).view.emb (ix2 0 k) = ix2 0 k := by
    funext a; apply Fin.ext
    match a with
    | ⟨0, _⟩ => show win2_1.index t (0 : Fin 2) * 1 + 1 * 0 = 0; omega
    | ⟨1, _⟩ => show win2_1.index t (1 : Fin 2) * 16 + 1 * k.val = k.val; omega
  have hr : ((cfg2.win 2).blk t).view.emb (ix2 k ⟨(y 1).val, hy1⟩) = ix2 k ⟨((((cfg2.win 4).blk t).view.emb y) 1).val, idx2_lt1 _⟩ := by
    funext a; apply Fin.ext
    match a with
    | ⟨0, _⟩ => show win2_2.index t (0 : Fin 2) * 16 + 1 * k.val = k.val; omega
    | ⟨1, _⟩ => show win2_2.index t (1 : Fin 2) * 1 + 1 * (y 1).val = win2_4.index t (1 : Fin 2) * 1 + 1 * (y 1).val; omega
  rw [hl, hb, hr]

/-- An index of the output array lies in point t's block iff each coordinate lies in the block's range on its axis. -/
theorem mem_blk (t : Fin cfg2.N) (i : S100000x1.Idx) :
    i ∈ ((cfg2.win 4).blk t).view.set ↔ ∀ a : Fin 2, win2_4.index t a * S10000x1.size a ≤ (i a).val ∧ (i a).val < win2_4.index t a * S10000x1.size a + S10000x1.size a := by
  show i ∈ ((View.whole main_v65).slice (win2_4.rect t)).set ↔ _
  rw [View.set_slice_whole, Rect.mem_set_unit]
  exact Iff.rfl

/-- Row r of the output lies in the block of point r / 10000: the ten blocks tile the array. -/
theorem cover (i : S100000x1.Idx) : ∃ t : Fin cfg2.N, (cfg2.win 4).flush t = true ∧ i ∈ ((cfg2.win 4).blk t).view.set := by
  have h0 : (i 0).val < 100000 := (i 0).isLt
  have h1 : (i 1).val < 1 := (i 1).isLt
  have hN : grid2.N = 10 := N_2
  have ht : (i 0).val / 10000 < cfg2.N := by show (i 0).val / 10000 < grid2.N; omega
  refine ⟨⟨(i 0).val / 10000, ht⟩, flush2_4 _, ?_⟩
  rw [mem_blk]
  have hf := idx_facts (⟨(i 0).val / 10000, ht⟩ : Fin cfg2.N)
  intro a
  match a with
  | ⟨0, _⟩ =>
    show win2_4.index ⟨(i 0).val / 10000, ht⟩ 0 * 10000 ≤ (i 0).val ∧ (i 0).val < win2_4.index ⟨(i 0).val / 10000, ht⟩ 0 * 10000 + 10000
    rw [hf.2.2.2.2.2.2.2.2.1]; dsimp only; omega
  | ⟨1, _⟩ =>
    show win2_4.index ⟨(i 0).val / 10000, ht⟩ 1 * 1 ≤ (i 1).val ∧ (i 1).val < win2_4.index ⟨(i 0).val / 10000, ht⟩ 1 * 1 + 1
    rw [hf.2.2.2.2.2.2.2.2.2]; omega

/-- The output array after the call's last write-back. -/
theorem final (c : Dev nD) : (dat2 V c).arrAt 4 cfg2.N = lin2 (ain V c) (bin V c) (win V c) (fbin V c) :=
  (dat2 V c).arrAt_eq_of_cover 4 _ (fun t _ => flushed V c t) cover

end Cert.KernelIdeal.Layer2

end
-- ==== Proof.HostStages.lean ====
/-
  The host side of the kernel's program, one stretch of host operations at a time.

  Between the kernel calls the program does on the host exactly what the reference does: it builds the edge lists
  with the self loops appended, counts each node's in-degree by a scatter-add of ones, takes the reciprocal square
  root where the degree is positive, multiplies the two endpoint factors into one weight per edge, and for each layer
  gathers the source rows, scales them by the edge weight and scatter-adds them into the target rows. None of that
  is opened here. Each lemma says: if the buffers a stretch reads hold the reference's stages, the buffer it writes
  holds the reference's next stage — the two sides are the same operations on the same operands, so once the
  operands are named alike the terms coincide. The reference computes the edge weights a second time for the second
  layer; as a term of the edge list it is the same term, which is the last fact below.
  All of it holds at any float family: nothing here uses what the operations mean.
-/
import proofs.«166586_j61933428417025_1_alg».proof.Proof.Gen.KernelIdeal.Launch
import proofs.«166586_j61933428417025_1_alg».proof.Proof.RefRead
import Idealize.ShloMosaic.Lib.StableHlo.Run

set_option maxRecDepth 16384
set_option maxHeartbeats 4000000

noncomputable section

open Idealize.ShloMosaic Idealize.ShloMosaic.TcCoe Idealize.SL.Sem Idealize.ShloMosaic.StableHlo

namespace Cert.KernelIdeal.Stretch

open Cert.KernelIdeal Cert.KernelIdeal.Gen
open Cert.ReferenceIdeal.ReadP (val_main_v3 val_main_v6 val_main_v17 val_main_v18 val_main_cst_3 val_main_v19 val_main_v43 val_main_v89
  val_main_v35 val_main_v48 val_main_v81 val_main_v94)

variable {F : FTy → Type} [FloatOps F]
variable (W : Valuation τ sig (Elt F))

/-! ## Before the first call: the edge lists, the degrees, the edge weights -/

/-- The source list with the self loops appended. -/
theorem row_list (x0 : (⟨S2x1600000, .i32⟩ : BufTy).Contents (Elt F)) (h0 : W (Proc.devRef .tc main_arg0) = x0) :
    after hostOps0 W (Proc.devRef .tc main_v3) = val_main_v3 (F := F) x0 := by
  after_results; rw [h0]; rfl

/-- The target list with the self loops appended. -/
theorem col_list (x0 : (⟨S2x1600000, .i32⟩ : BufTy).Contents (Elt F)) (h0 : W (Proc.devRef .tc main_arg0) = x0) :
    after hostOps0 W (Proc.devRef .tc main_v6) = val_main_v6 (F := F) x0 := by
  after_results; rw [h0]; rfl

/-- Where the in-degree is positive. -/
theorem deg_pos (x0 : (⟨S2x1600000, .i32⟩ : BufTy).Contents (Elt F)) (h0 : W (Proc.devRef .tc main_arg0) = x0) :
    after hostOps0 W (Proc.devRef .tc main_v17) = val_main_v17 (F := F) x0 := by
  after_results; rw [h0]; rfl

/-- The reciprocal square root of the in-degree. -/
theorem deg_rsqrt (x0 : (⟨S2x1600000, .i32⟩ : BufTy).Contents (Elt F)) (h0 : W (Proc.devRef .tc main_arg0) = x0) :
    after hostOps0 W (Proc.devRef .tc main_v18) = val_main_v18 (F := F) x0 := by
  after_results; rw [h0]; rfl

/-- The zero the normalisation falls back to. -/
theorem fallback_zero : after hostOps0 W (Proc.devRef .tc main_cst_3) = val_main_cst_3 (F := F) := by
  after_results; rfl

/-- The per-node factor: the reciprocal square root where the degree is positive, zero elsewhere. -/
theorem node_factor (x0 : (⟨S2x1600000, .i32⟩ : BufTy).Contents (Elt F))
    (h17 : W (Proc.devRef .tc main_v17) = val_main_v17 (F := F) x0) (h18 : W (Proc.devRef .tc main_v18) = val_main_v18 (F := F) x0)
    (hc : W (Proc.devRef .tc main_cst_3) = val_main_cst_3 (F := F)) :
    after hostOps0_1 W (Proc.devRef .tc main_v19) = val_main_v19 (F := F) x0 := by
  after_results; rw [h17, h18, hc]; rfl

/-- The per-edge weight as a column: the product of the two endpoints' factors. -/
theorem edge_weight (x0 : (⟨S2x1600000, .i32⟩ : BufTy).Contents (Elt F))
    (h3 : W (Proc.devRef .tc main_v3) = val_main_v3 (F := F) x0) (h6 : W (Proc.devRef .tc main_v6) = val_main_v6 (F := F) x0)
    (h19 : W (Proc.devRef .tc main_v19) = val_main_v19 (F := F) x0) :
    after hostOps0_2 W (Proc.devRef .tc main_v35) = val_main_v43 (F := F) x0 := by
  after_results; rw [h3, h6, h19]; rfl

/-! ## Between the first and the second call: gather, scale, scatter-add; and the bias as a row -/

theorem aggregate1 (x0 : (⟨S2x1600000, .i32⟩ : BufTy).Contents (Elt F)) (x1 : (⟨S100000x16, .f32⟩ : BufTy).Contents (Elt F)) (x2 : (⟨S16x32, .f32⟩ : BufTy).Contents (Elt F))
    (h3 : W (Proc.devRef .tc main_v3) = val_main_v3 (F := F) x0) (h6 : W (Proc.devRef .tc main_v6) = val_main_v6 (F := F) x0)
    (h35 : W (Proc.devRef .tc main_v35) = val_main_v43 (F := F) x0) (h36 : W (Proc.devRef .tc main_v36) = val_main_v35 (F := F) x1 x2) :
    after hostOps1 W (Proc.devRef .tc main_v48) = val_main_v48 (F := F) x0 x1 x2 := by
  after_results; rw [h3, h6, h35, h36]; rfl

theorem bias1_row (x3 : (⟨S32, .f32⟩ : BufTy).Contents (Elt F)) (h : W (Proc.devRef .tc main_arg3) = x3) :
    after hostOps1 W (Proc.devRef .tc main_v49) = shapeCast S1x32 x3 shapeCasts_S32_S1x32 := by
  after_results; rw [h]; rfl

/-! ## Between the second and the third call -/

/-- The reference's second computation of the edge weights is the first one's term. -/
theorem edge_weight_again (x0 : (⟨S2x1600000, .i32⟩ : BufTy).Contents (Elt F)) :
    val_main_v89 (F := F) x0 = val_main_v43 (F := F) x0 := rfl

theorem aggregate2 (x0 : (⟨S2x1600000, .i32⟩ : BufTy).Contents (Elt F)) (x1 : (⟨S100000x16, .f32⟩ : BufTy).Contents (Elt F)) (x2 : (⟨S16x32, .f32⟩ : BufTy).Contents (Elt F))
    (x3 : (⟨S32, .f32⟩ : BufTy).Contents (Elt F)) (x4 : (⟨S32x16, .f32⟩ : BufTy).Contents (Elt F))
    (h3 : W (Proc.devRef .tc main_v3) = val_main_v3 (F := F) x0) (h6 : W (Proc.devRef .tc main_v6) = val_main_v6 (F := F) x0)
    (h35 : W (Proc.devRef .tc main_v35) = val_main_v43 (F := F) x0) (h50 : W (Proc.devRef .tc main_v50) = val_main_v81 (F := F) x0 x1 x2 x3 x4) :
    after hostOps2 W (Proc.devRef .tc main_v62) = val_main_v94 (F := F) x0 x1 x2 x3 x4 := by
  after_results; rw [h3, h6, h35, h50, ← edge_weight_again]; rfl

theorem bias2_row (x5 : (⟨S16, .f32⟩ : BufTy).Contents (Elt F)) (h : W (Proc.devRef .tc main_arg5) = x5) :
    after hostOps2 W (Proc.devRef .tc main_v63) = shapeCast S1x16 x5 shapeCasts_S16_S1x16 := by
  after_results; rw [h]; rfl

theorem out_bias_cell (x7 : (⟨S1, .f32⟩ : BufTy).Contents (Elt F)) (h : W (Proc.devRef .tc main_arg7) = x7) :
    after hostOps2 W (Proc.devRef .tc main_v64) = shapeCast S1x1 x7 shapeCasts_S1_S1x1 := by
  after_results; rw [h]; rfl

end Cert.KernelIdeal.Stretch

end
-- ==== Proof.RefStages.lean ====
/-
  The reference's three dense stages are the three layers of the specification.

  On the reference's side a dense map is a host matrix product, which over the extended reals is the plain sum
  Σ_k l[r, k] · w[k, j]; the bias is broadcast from a vector to a one-row array and then down all rows, so at
  entry (r, k) it reads the vector's k-th entry; the clamp is a maximum against a broadcast zero. Read entry by
  entry these are the same sums the kernel calls compute, where the kernel holds the bias as a one-row array whose
  (0, k) entry is the vector's k-th entry and the output bias as a one-by-one array holding the vector's only entry.
-/
import proofs.«166586_j61933428417025_1_alg».proof.Proof.RefRead
import proofs.«166586_j61933428417025_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.ValueIdx

namespace Cert.ReferenceIdeal.Dense

open Cert.ReferenceIdeal Cert.ReferenceIdeal.ReadP Cert.Layers

/-- A vector reshaped to one row reads, at (0, k), the vector's k-th entry. -/
theorem row_of_vec {n : Nat} (x : FVec Ideal ⟨1, ![n]⟩ .f32) (h : (⟨1, ![n]⟩ : Shape).ShapeCasts ⟨2, ![1, n]⟩) (k : Fin n) :
    shapeCast (⟨2, ![1, n]⟩ : Shape) x h (ix2 0 k) = x (ix1 k) :=
  shapeCast_apply x h (ix2 0 k) (ix1 k) (by
    rw [Shape.rowMajor_val_one, Shape.rowMajor_val_two]
    show k.val = 0 * n + k.val
    omega)

/-- The first dense stage: the node features times the first weight matrix. -/
theorem dense0 (x1 : FVec Ideal S100000x16 .f32) (x2 : FVec Ideal S16x32 .f32) :
    val_main_v35 (F := Ideal) x1 x2 = lin0 x1 x2 := by
  funext i
  rw [val_main_v35_apply]
  unfold lin0
  refine Finset.sum_congr rfl fun k _ => ?_
  have el : lidx_main_v35 i k = ix2 ⟨(i 0).val, idx2_lt0 i⟩ k := funext fun a => by
    match a with
    | ⟨0, _⟩ => rfl
    | ⟨1, _⟩ => rfl
  have er : ridx_main_v35 i k = ix2 k ⟨(i 1).val, idx2_lt1 i⟩ := funext fun a => by
    match a with
    | ⟨0, _⟩ => rfl
    | ⟨1, _⟩ => rfl
  rw [el, er]

/-- The second dense stage, over whatever one-row array holds the bias vector's entries. -/
theorem dense1 (x0 : (⟨S2x1600000, .i32⟩ : BufTy).Contents (Elt Ideal)) (x1 : FVec Ideal S100000x16 .f32) (x2 : FVec Ideal S16x32 .f32)
    (x3 : FVec Ideal S32 .f32) (x4 : FVec Ideal S32x16 .f32) (b : FVec Ideal S1x32 .f32) (hb : ∀ k : Fin 32, b (ix2 0 k) = x3 (ix1 k)) :
    val_main_v81 (F := Ideal) x0 x1 x2 x3 x4 = lin1 (val_main_v48 (F := Ideal) x0 x1 x2) b x4 := by
  funext i
  rw [val_main_v81_apply]
  unfold lin1
  refine Finset.sum_congr rfl fun k _ => ?_
  have el : lidx_main_v81 i k = ix2 ⟨(i 0).val, idx2_lt0 i⟩ k := funext fun a => by
    match a with
    | ⟨0, _⟩ => rfl
    | ⟨1, _⟩ => rfl
  have er : ridx_main_v81 i k = ix2 k ⟨(i 1).val, idx2_lt1 i⟩ := funext fun a => by
    match a with
    | ⟨0, _⟩ => rfl
    | ⟨1, _⟩ => rfl
  have eb : idx_main_v49 (idx_main_v50 (ix2 ⟨(i 0).val, idx2_lt0 i⟩ k)) = ix1 k := funext fun a => by
    match a with
    | ⟨0, _⟩ => rfl
  rw [el, er, val_main_v52_apply, val_main_v51_apply, val_main_v50_apply, val_main_v49_apply, val_main_call1_v0_apply,
    val_main_call1_cst_apply, eb, hb]
  rfl

/-- The third dense stage, over whatever one-row array holds the bias vector's entries and whatever one-by-one array
    holds the output bias. -/
theorem dense2 (x0 : (⟨S2x1600000, .i32⟩ : BufTy).Contents (Elt Ideal)) (x1 : FVec Ideal S100000x16 .f32) (x2 : FVec Ideal S16x32 .f32)
    (x3 : FVec Ideal S32 .f32) (x4 : FVec Ideal S32x16 .f32) (x5 : FVec Ideal S16 .f32) (x6 : FVec Ideal S16x1 .f32) (x7 : FVec Ideal S1 .f32)
    (b : FVec Ideal S1x16 .f32) (hb : ∀ k : Fin 16, b (ix2 0 k) = x5 (ix1 k)) (fb : FVec Ideal S1x1 .f32) (hfb : fb (ix2 0 0) = x7 (ix1 0)) :
    val_main_v102 (F := Ideal) x0 x1 x2 x3 x4 x5 x6 x7 = lin2 (val_main_v94 (F := Ideal) x0 x1 x2 x3 x4) b x6 fb := by
  funext i
  rw [val_main_v102_apply, val_main_v99_apply, val_main_v101_apply, val_main_v100_apply]
  unfold lin2
  have ef : idx_main_v100 (idx_main_v101 i) = ix1 0 := funext fun a => by
    match a with
    | ⟨0, _⟩ => rfl
  rw [ef, hfb]
  refine congrArg (· + x7 (ix1 0)) (Finset.sum_congr rfl fun k _ => ?_)
  have el : lidx_main_v99 i k = ix2 ⟨(i 0).val, idx2_lt0 i⟩ k := funext fun a => by
    match a with
    | ⟨0, _⟩ => rfl
    | ⟨1, _⟩ => rfl
  have er : ridx_main_v99 i k = ix2 k ⟨(i 1).val, idx2_lt1 i⟩ := funext fun a => by
    match a with
    | ⟨0, _⟩ => rfl
    | ⟨1, _⟩ => rfl
  have eb : idx_main_v95 (idx_main_v96 (ix2 ⟨(i 0).val, idx2_lt0 i⟩ k)) = ix1 k := funext fun a => by
    match a with
    | ⟨0, _⟩ => rfl
  rw [el, er, val_main_v98_apply, val_main_v97_apply, val_main_v96_apply, val_main_v95_apply, val_main_call3_v0_apply,
    val_main_call3_cst_apply, eb, hb]
  rfl

end Cert.ReferenceIdeal.Dense

end
-- ==== Proof.KernelValue.lean ====
/-
  The kernel's program followed from launch to return: what each live buffer holds at every boundary between a
  stretch of host operations and a kernel call, named by the reference's stages.

  Three kinds of step. A stretch of host operations writes a buffer: the stretch's lemma names what it holds, from
  what the buffers it reads hold. A kernel call writes its output array: the call's whole-array result, which the
  reference's dense stage equals. And a buffer that a segment does not write holds afterwards what it held before;
  the edge lists, the edge weights and the weight and bias arguments are carried along this way to where they are
  read. At the end the result buffer holds the reference's last stage of the eight arguments.
-/
import proofs.«166586_j61933428417025_1_alg».proof.Proof.Gen.KernelIdeal.Frame
import proofs.«166586_j61933428417025_1_alg».proof.Proof.Region0
import proofs.«166586_j61933428417025_1_alg».proof.Proof.Region1
import proofs.«166586_j61933428417025_1_alg».proof.Proof.Region2
import proofs.«166586_j61933428417025_1_alg».proof.Proof.HostStages
import proofs.«166586_j61933428417025_1_alg».proof.Proof.RefStages

set_option maxRecDepth 16384
set_option maxHeartbeats 1000000

noncomputable section

open Idealize.ShloMosaic Idealize.ShloMosaic.TcCoe Idealize.SL.Sem

namespace Cert.KernelIdeal.Whole

open Cert.KernelIdeal Cert.KernelIdeal.Gen Cert.Layers
open Cert.ReferenceIdeal.ReadP (val_main_v3 val_main_v6 val_main_v17 val_main_v18 val_main_cst_3 val_main_v19 val_main_v43
  val_main_v35 val_main_v48 val_main_v81 val_main_v94 val_main_v102)

variable (m : (ℓ : Loc nD τ sig) → Buf (Elt Ideal) ℓ) (ρ : Dev nD → PrngReg) (c : Dev nD)

/-- No operation of the stretch writes the buffer, so it holds what it held. -/
local macro "untouched" : tactic => `(tactic| (
  refine StableHlo.after_of_forall_not_mem _ _ (List.forall_iff_forall_mem.mp ?_)
  simp only [hostOps0, hostOps0_1, hostOps0_2, hostOps1, hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## At launch -/
theorem at0_arg0 : W0 m ρ c (Proc.devRef .tc main_arg0) = (m ((c : Thread nD τ).loc main_arg0)) :=
  rfl
theorem at0_arg1 : W0 m ρ c (Proc.devRef .tc main_arg1) = (m ((c : Thread nD τ).loc main_arg1)) :=
  rfl
theorem at0_arg2 : W0 m ρ c (Proc.devRef .tc main_arg2) = (m ((c : Thread nD τ).loc main_arg2)) :=
  rfl
theorem at0_arg3 : W0 m ρ c (Proc.devRef .tc main_arg3) = (m ((c : Thread nD τ).loc main_arg3)) :=
  rfl
theorem at0_arg4 : W0 m ρ c (Proc.devRef .tc main_arg4) = (m ((c : Thread nD τ).loc main_arg4)) :=
  rfl
theorem at0_arg5 : W0 m ρ c (Proc.devRef .tc main_arg5) = (m ((c : Thread nD τ).loc main_arg5)) :=
  rfl
theorem at0_arg6 : W0 m ρ c (Proc.devRef .tc main_arg6) = (m ((c : Thread nD τ).loc main_arg6)) :=
  rfl
theorem at0_arg7 : W0 m ρ c (Proc.devRef .tc main_arg7) = (m ((c : Thread nD τ).loc main_arg7)) :=
  rfl

/-! ## After the first stretch: the edge lists, where the degree is positive, its reciprocal square root -/
theorem at1_v3 : W1 m ρ c (Proc.devRef .tc main_v3) = val_main_v3 (F := Ideal) (m ((c : Thread nD τ).loc main_arg0)) :=
  Stretch.row_list (W0 m ρ c) _ (at0_arg0 m ρ c)
theorem at1_v6 : W1 m ρ c (Proc.devRef .tc main_v6) = val_main_v6 (F := Ideal) (m ((c : Thread nD τ).loc main_arg0)) :=
  Stretch.col_list (W0 m ρ c) _ (at0_arg0 m ρ c)
theorem at1_v17 : W1 m ρ c (Proc.devRef .tc main_v17) = val_main_v17 (F := Ideal) (m ((c : Thread nD τ).loc main_arg0)) :=
  Stretch.deg_pos (W0 m ρ c) _ (at0_arg0 m ρ c)
theorem at1_v18 : W1 m ρ c (Proc.devRef .tc main_v18) = val_main_v18 (F := Ideal) (m ((c : Thread nD τ).loc main_arg0)) :=
  Stretch.deg_rsqrt (W0 m ρ c) _ (at0_arg0 m ρ c)
theorem at1_cst_3 : W1 m ρ c (Proc.devRef .tc main_cst_3) = val_main_cst_3 (F := Ideal) :=
  Stretch.fallback_zero (W0 m ρ c)
theorem at1_arg1 : W1 m ρ c (Proc.devRef .tc main_arg1) = (m ((c : Thread nD τ).loc main_arg1)) :=
  (show StableHlo.after hostOps0 (W0 m ρ c) (Proc.devRef .tc main_arg1) = W0 m ρ c (Proc.devRef .tc main_arg1) from by untouched).trans (at0_arg1 m ρ c)
theorem at1_arg2 : W1 m ρ c (Proc.devRef .tc main_arg2) = (m ((c : Thread nD τ).loc main_arg2)) :=
  (show StableHlo.after hostOps0 (W0 m ρ c) (Proc.devRef .tc main_arg2) = W0 m ρ c (Proc.devRef .tc main_arg2) from by untouched).trans (at0_arg2 m ρ c)
theorem at1_arg3 : W1 m ρ c (Proc.devRef .tc main_arg3) = (m ((c : Thread nD τ).loc main_arg3)) :=
  (show StableHlo.after hostOps0 (W0 m ρ c) (Proc.devRef .tc main_arg3) = W0 m ρ c (Proc.devRef .tc main_arg3) from by untouched).trans (at0_arg3 m ρ c)
theorem at1_arg4 : W1 m ρ c (Proc.devRef .tc main_arg4) = (m ((c : Thread nD τ).loc main_arg4)) :=
  (show StableHlo.after hostOps0 (W0 m ρ c) (Proc.devRef .tc main_arg4) = W0 m ρ c (Proc.devRef .tc main_arg4) from by untouched).trans (at0_arg4 m ρ c)
theorem at1_arg5 : W1 m ρ c (Proc.devRef .tc main_arg5) = (m ((c : Thread nD τ).loc main_arg5)) :=
  (show StableHlo.after hostOps0 (W0 m ρ c) (Proc.devRef .tc main_arg5) = W0 m ρ c (Proc.devRef .tc main_arg5) from by untouched).trans (at0_arg5 m ρ c)
theorem at1_arg6 : W1 m ρ c (Proc.devRef .tc main_arg6) = (m ((c : Thread nD τ).loc main_arg6)) :=
  (show StableHlo.after hostOps0 (W0 m ρ c) (Proc.devRef .tc main_arg6) = W0 m ρ c (Proc.devRef .tc main_arg6) from by untouched).trans (at0_arg6 m ρ c)
theorem at1_arg7 : W1 m ρ c (Proc.devRef .tc main_arg7) = (m ((c : Thread nD τ).loc main_arg7)) :=
  (show StableHlo.after hostOps0 (W0 m ρ c) (Proc.devRef .tc main_arg7) = W0 m ρ c (Proc.devRef .tc main_arg7) from by untouched).trans (at0_arg7 m ρ c)

/-! ## After the second stretch: the per-node factor -/
theorem at2_v19 : W2 m ρ c (Proc.devRef .tc main_v19) = val_main_v19 (F := Ideal) (m ((c : Thread nD τ).loc main_arg0)) :=
  Stretch.node_factor (W1 m ρ c) _ (at1_v17 m ρ c) (at1_v18 m ρ c) (at1_cst_3 m ρ c)
theorem at2_v3 : W2 m ρ c (Proc.devRef .tc main_v3) = val_main_v3 (F := Ideal) (m ((c : Thread nD τ).loc main_arg0)) :=
  (show StableHlo.after hostOps0_1 (W1 m ρ c) (Proc.devRef .tc main_v3) = W1 m ρ c (Proc.devRef .tc main_v3) from by untouched).trans (at1_v3 m ρ c)
theorem at2_v6 : W2 m ρ c (Proc.devRef .tc main_v6) = val_main_v6 (F := Ideal) (m ((c : Thread nD τ).loc main_arg0)) :=
  (show StableHlo.after hostOps0_1 (W1 m ρ c) (Proc.devRef .tc main_v6) = W1 m ρ c (Proc.devRef .tc main_v6) from by untouched).trans (at1_v6 m ρ c)
theorem at2_arg1 : W2 m ρ c (Proc.devRef .tc main_arg1) = (m ((c : Thread nD τ).loc main_arg1)) :=
  (show StableHlo.after hostOps0_1 (W1 m ρ c) (Proc.devRef .tc main_arg1) = W1 m ρ c (Proc.devRef .tc main_arg1) from by untouched).trans (at1_arg1 m ρ c)
theorem at2_arg2 : W2 m ρ c (Proc.devRef .tc main_arg2) = (m ((c : Thread nD τ).loc main_arg2)) :=
  (show StableHlo.after hostOps0_1 (W1 m ρ c) (Proc.devRef .tc main_arg2) = W1 m ρ c (Proc.devRef .tc main_arg2) from by untouched).trans (at1_arg2 m ρ c)
theorem at2_arg3 : W2 m ρ c (Proc.devRef .tc main_arg3) = (m ((c : Thread nD τ).loc main_arg3)) :=
  (show StableHlo.after hostOps0_1 (W1 m ρ c) (Proc.devRef .tc main_arg3) = W1 m ρ c (Proc.devRef .tc main_arg3) from by untouched).trans (at1_arg3 m ρ c)
theorem at2_arg4 : W2 m ρ c (Proc.devRef .tc main_arg4) = (m ((c : Thread nD τ).loc main_arg4)) :=
  (show StableHlo.after hostOps0_1 (W1 m ρ c) (Proc.devRef .tc main_arg4) = W1 m ρ c (Proc.devRef .tc main_arg4) from by untouched).trans (at1_arg4 m ρ c)
theorem at2_arg5 : W2 m ρ c (Proc.devRef .tc main_arg5) = (m ((c : Thread nD τ).loc main_arg5)) :=
  (show StableHlo.after hostOps0_1 (W1 m ρ c) (Proc.devRef .tc main_arg5) = W1 m ρ c (Proc.devRef .tc main_arg5) from by untouched).trans (at1_arg5 m ρ c)
theorem at2_arg6 : W2 m ρ c (Proc.devRef .tc main_arg6) = (m ((c : Thread nD τ).loc main_arg6)) :=
  (show StableHlo.after hostOps0_1 (W1 m ρ c) (Proc.devRef .tc main_arg6) = W1 m ρ c (Proc.devRef .tc main_arg6) from by untouched).trans (at1_arg6 m ρ c)
theorem at2_arg7 : W2 m ρ c (Proc.devRef .tc main_arg7) = (m ((c : Thread nD τ).loc main_arg7)) :=
  (show StableHlo.after hostOps0_1 (W1 m ρ c) (Proc.devRef .tc main_arg7) = W1 m ρ c (Proc.devRef .tc main_arg7) from by untouched).trans (at1_arg7 m ρ c)

/-! ## After the third stretch, where the first call is entered: the per-edge weight -/
theorem at3_v35 : W3 m ρ c (Proc.devRef .tc main_v35) = val_main_v43 (F := Ideal) (m ((c : Thread nD τ).loc main_arg0)) :=
  Stretch.edge_weight (W2 m ρ c) _ (at2_v3 m ρ c) (at2_v6 m ρ c) (at2_v19 m ρ c)
theorem at3_v3 : W3 m ρ c (Proc.devRef .tc main_v3) = val_main_v3 (F := Ideal) (m ((c : Thread nD τ).loc main_arg0)) :=
  (show StableHlo.after hostOps0_2 (W2 m ρ c) (Proc.devRef .tc main_v3) = W2 m ρ c (Proc.devRef .tc main_v3) from by untouched).trans (at2_v3 m ρ c)
theorem at3_v6 : W3 m ρ c (Proc.devRef .tc main_v6) = val_main_v6 (F := Ideal) (m ((c : Thread nD τ).loc main_arg0)) :=
  (show StableHlo.after hostOps0_2 (W2 m ρ c) (Proc.devRef .tc main_v6) = W2 m ρ c (Proc.devRef .tc main_v6) from by untouched).trans (at2_v6 m ρ c)
theorem at3_arg1 : W3 m ρ c (Proc.devRef .tc main_arg1) = (m ((c : Thread nD τ).loc main_arg1)) :=
  (show StableHlo.after hostOps0_2 (W2 m ρ c) (Proc.devRef .tc main_arg1) = W2 m ρ c (Proc.devRef .tc main_arg1) from by untouched).trans (at2_arg1 m ρ c)
theorem at3_arg2 : W3 m ρ c (Proc.devRef .tc main_arg2) = (m ((c : Thread nD τ).loc main_arg2)) :=
  (show StableHlo.after hostOps0_2 (W2 m ρ c) (Proc.devRef .tc main_arg2) = W2 m ρ c (Proc.devRef .tc main_arg2) from by untouched).trans (at2_arg2 m ρ c)
theorem at3_arg3 : W3 m ρ c (Proc.devRef .tc main_arg3) = (m ((c : Thread nD τ).loc main_arg3)) :=
  (show StableHlo.after hostOps0_2 (W2 m ρ c) (Proc.devRef .tc main_arg3) = W2 m ρ c (Proc.devRef .tc main_arg3) from by untouched).trans (at2_arg3 m ρ c)
theorem at3_arg4 : W3 m ρ c (Proc.devRef .tc main_arg4) = (m ((c : Thread nD τ).loc main_arg4)) :=
  (show StableHlo.after hostOps0_2 (W2 m ρ c) (Proc.devRef .tc main_arg4) = W2 m ρ c (Proc.devRef .tc main_arg4) from by untouched).trans (at2_arg4 m ρ c)
theorem at3_arg5 : W3 m ρ c (Proc.devRef .tc main_arg5) = (m ((c : Thread nD τ).loc main_arg5)) :=
  (show StableHlo.after hostOps0_2 (W2 m ρ c) (Proc.devRef .tc main_arg5) = W2 m ρ c (Proc.devRef .tc main_arg5) from by untouched).trans (at2_arg5 m ρ c)
theorem at3_arg6 : W3 m ρ c (Proc.devRef .tc main_arg6) = (m ((c : Thread nD τ).loc main_arg6)) :=
  (show StableHlo.after hostOps0_2 (W2 m ρ c) (Proc.devRef .tc main_arg6) = W2 m ρ c (Proc.devRef .tc main_arg6) from by untouched).trans (at2_arg6 m ρ c)
theorem at3_arg7 : W3 m ρ c (Proc.devRef .tc main_arg7) = (m ((c : Thread nD τ).loc main_arg7)) :=
  (show StableHlo.after hostOps0_2 (W2 m ρ c) (Proc.devRef .tc main_arg7) = W2 m ρ c (Proc.devRef .tc main_arg7) from by untouched).trans (at2_arg7 m ρ c)

/-! ## After the first call: the node features times the first weight matrix -/
theorem at4_v36 : W4 m ρ c (Proc.devRef .tc main_v36) = val_main_v35 (F := Ideal) (m ((c : Thread nD τ).loc main_arg1)) (m ((c : Thread nD τ).loc main_arg2)) :=
  (W4_arr m ρ c 2).trans ((Layer0.final (V3 m ρ) c).trans (by
    show lin0 (W3 m ρ c (Proc.devRef .tc main_arg1)) (W3 m ρ c (Proc.devRef .tc main_arg2)) = _
    rw [at3_arg1 m ρ c, at3_arg2 m ρ c]
    exact (Cert.ReferenceIdeal.Dense.dense0 _ _).symm))
theorem at4_v3 : W4 m ρ c (Proc.devRef .tc main_v3) = val_main_v3 (F := Ideal) (m ((c : Thread nD τ).loc main_arg0)) :=
  (W4_of_ne m ρ c main_v3 (by decide)).trans (at3_v3 m ρ c)
theorem at4_v6 : W4 m ρ c (Proc.devRef .tc main_v6) = val_main_v6 (F := Ideal) (m ((c : Thread nD τ).loc main_arg0)) :=
  (W4_of_ne m ρ c main_v6 (by decide)).trans (at3_v6 m ρ c)
theorem at4_v35 : W4 m ρ c (Proc.devRef .tc main_v35) = val_main_v43 (F := Ideal) (m ((c : Thread nD τ).loc main_arg0)) :=
  (W4_of_ne m ρ c main_v35 (by decide)).trans (at3_v35 m ρ c)
theorem at4_arg3 : W4 m ρ c (Proc.devRef .tc main_arg3) = (m ((c : Thread nD τ).loc main_arg3)) :=
  (W4_of_ne m ρ c main_arg3 (by decide)).trans (at3_arg3 m ρ c)
theorem at4_arg4 : W4 m ρ c (Proc.devRef .tc main_arg4) = (m ((c : Thread nD τ).loc main_arg4)) :=
  (W4_of_ne m ρ c main_arg4 (by decide)).trans (at3_arg4 m ρ c)
theorem at4_arg5 : W4 m ρ c (Proc.devRef .tc main_arg5) = (m ((c : Thread nD τ).loc main_arg5)) :=
  (W4_of_ne m ρ c main_arg5 (by decide)).trans (at3_arg5 m ρ c)
theorem at4_arg6 : W4 m ρ c (Proc.devRef .tc main_arg6) = (m ((c : Thread nD τ).loc main_arg6)) :=
  (W4_of_ne m ρ c main_arg6 (by decide)).trans (at3_arg6 m ρ c)
theorem at4_arg7 : W4 m ρ c (Proc.devRef .tc main_arg7) = (m ((c : Thread nD τ).loc main_arg7)) :=
  (W4_of_ne m ρ c main_arg7 (by decide)).trans (at3_arg7 m ρ c)

/-! ## After the stretch between the first and the second call: the first aggregation, the bias as a row -/
theorem at5_v48 : W5 m ρ c (Proc.devRef .tc main_v48) = val_main_v48 (F := Ideal) (m ((c : Thread nD τ).loc main_arg0)) (m ((c : Thread nD τ).loc main_arg1)) (m ((c : Thread nD τ).loc main_arg2)) :=
  Stretch.aggregate1 (W4 m ρ c) _ _ _ (at4_v3 m ρ c) (at4_v6 m ρ c) (at4_v35 m ρ c) (at4_v36 m ρ c)
theorem at5_v49 : W5 m ρ c (Proc.devRef .tc main_v49) = shapeCast S1x32 (m ((c : Thread nD τ).loc main_arg3)) shapeCasts_S32_S1x32 :=
  Stretch.bias1_row (W4 m ρ c) _ (at4_arg3 m ρ c)
theorem at5_v3 : W5 m ρ c (Proc.devRef .tc main_v3) = val_main_v3 (F := Ideal) (m ((c : Thread nD τ).loc main_arg0)) :=
  (show StableHlo.after hostOps1 (W4 m ρ c) (Proc.devRef .tc main_v3) = W4 m ρ c (Proc.devRef .tc main_v3) from by untouched).trans (at4_v3 m ρ c)
theorem at5_v6 : W5 m ρ c (Proc.devRef .tc main_v6) = val_main_v6 (F := Ideal) (m ((c : Thread nD τ).loc main_arg0)) :=
  (show StableHlo.after hostOps1 (W4 m ρ c) (Proc.devRef .tc main_v6) = W4 m ρ c (Proc.devRef .tc main_v6) from by untouched).trans (at4_v6 m ρ c)
theorem at5_v35 : W5 m ρ c (Proc.devRef .tc main_v35) = val_main_v43 (F := Ideal) (m ((c : Thread nD τ).loc main_arg0)) :=
  (show StableHlo.after hostOps1 (W4 m ρ c) (Proc.devRef .tc main_v35) = W4 m ρ c (Proc.devRef .tc main_v35) from by untouched).trans (at4_v35 m ρ c)
theorem at5_arg4 : W5 m ρ c (Proc.devRef .tc main_arg4) = (m ((c : Thread nD τ).loc main_arg4)) :=
  (show StableHlo.after hostOps1 (W4 m ρ c) (Proc.devRef .tc main_arg4) = W4 m ρ c (Proc.devRef .tc main_arg4) from by untouched).trans (at4_arg4 m ρ c)
theorem at5_arg5 : W5 m ρ c (Proc.devRef .tc main_arg5) = (m ((c : Thread nD τ).loc main_arg5)) :=
  (show StableHlo.after hostOps1 (W4 m ρ c) (Proc.devRef .tc main_arg5) = W4 m ρ c (Proc.devRef .tc main_arg5) from by untouched).trans (at4_arg5 m ρ c)
theorem at5_arg6 : W5 m ρ c (Proc.devRef .tc main_arg6) = (m ((c : Thread nD τ).loc main_arg6)) :=
  (show StableHlo.after hostOps1 (W4 m ρ c) (Proc.devRef .tc main_arg6) = W4 m ρ c (Proc.devRef .tc main_arg6) from by untouched).trans (at4_arg6 m ρ c)
theorem at5_arg7 : W5 m ρ c (Proc.devRef .tc main_arg7) = (m ((c : Thread nD τ).loc main_arg7)) :=
  (show StableHlo.after hostOps1 (W4 m ρ c) (Proc.devRef .tc main_arg7) = W4 m ρ c (Proc.devRef .tc main_arg7) from by untouched).trans (at4_arg7 m ρ c)

/-! ## After the second call -/
theorem at6_v50 : W6 m ρ c (Proc.devRef .tc main_v50) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 3).trans ((Layer1.final (V5 m ρ) c).trans (by
    show lin1 (W5 m ρ c (Proc.devRef .tc main_v48)) (W5 m ρ c (Proc.devRef .tc main_v49)) (W5 m ρ c (Proc.devRef .tc main_arg4)) = _
    rw [at5_v48 m ρ c, at5_v49 m ρ c, at5_arg4 m ρ c]
    exact (Cert.ReferenceIdeal.Dense.dense1 _ _ _ _ _ _ (fun k => Cert.ReferenceIdeal.Dense.row_of_vec _ _ k)).symm))
theorem at6_v3 : W6 m ρ c (Proc.devRef .tc main_v3) = val_main_v3 (F := Ideal) (m ((c : Thread nD τ).loc main_arg0)) :=
  (W6_of_ne m ρ c main_v3 (by decide)).trans (at5_v3 m ρ c)
theorem at6_v6 : W6 m ρ c (Proc.devRef .tc main_v6) = val_main_v6 (F := Ideal) (m ((c : Thread nD τ).loc main_arg0)) :=
  (W6_of_ne m ρ c main_v6 (by decide)).trans (at5_v6 m ρ c)
theorem at6_v35 : W6 m ρ c (Proc.devRef .tc main_v35) = val_main_v43 (F := Ideal) (m ((c : Thread nD τ).loc main_arg0)) :=
  (W6_of_ne m ρ c main_v35 (by decide)).trans (at5_v35 m ρ c)
theorem at6_arg5 : W6 m ρ c (Proc.devRef .tc main_arg5) = (m ((c : Thread nD τ).loc main_arg5)) :=
  (W6_of_ne m ρ c main_arg5 (by decide)).trans (at5_arg5 m ρ c)
theorem at6_arg6 : W6 m ρ c (Proc.devRef .tc main_arg6) = (m ((c : Thread nD τ).loc main_arg6)) :=
  (W6_of_ne m ρ c main_arg6 (by decide)).trans (at5_arg6 m ρ c)
theorem at6_arg7 : W6 m ρ c (Proc.devRef .tc main_arg7) = (m ((c : Thread nD τ).loc main_arg7)) :=
  (W6_of_ne m ρ c main_arg7 (by decide)).trans (at5_arg7 m ρ c)

/-! ## After the stretch between the second and the third call -/
theorem at7_v62 : W7 m ρ c (Proc.devRef .tc main_v62) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  Stretch.aggregate2 (W6 m ρ c) _ _ _ _ _ (at6_v3 m ρ c) (at6_v6 m ρ c) (at6_v35 m ρ c) (at6_v50 m ρ c)
theorem at7_v63 : W7 m ρ c (Proc.devRef .tc main_v63) = shapeCast S1x16 (m ((c : Thread nD τ).loc main_arg5)) shapeCasts_S16_S1x16 :=
  Stretch.bias2_row (W6 m ρ c) _ (at6_arg5 m ρ c)
theorem at7_v64 : W7 m ρ c (Proc.devRef .tc main_v64) = shapeCast S1x1 (m ((c : Thread nD τ).loc main_arg7)) shapeCasts_S1_S1x1 :=
  Stretch.out_bias_cell (W6 m ρ c) _ (at6_arg7 m ρ c)
theorem at7_arg6 : W7 m ρ c (Proc.devRef .tc main_arg6) = (m ((c : Thread nD τ).loc main_arg6)) :=
  (show StableHlo.after hostOps2 (W6 m ρ c) (Proc.devRef .tc main_arg6) = W6 m ρ c (Proc.devRef .tc main_arg6) from by untouched).trans (at6_arg6 m ρ c)

/-! ## After the third call: the result -/
theorem result : W8 m ρ c (Proc.devRef .tc main_v65) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 4).trans ((Layer2.final (V7 m ρ) c).trans (by
    show lin2 (W7 m ρ c (Proc.devRef .tc main_v62)) (W7 m ρ c (Proc.devRef .tc main_v63)) (W7 m ρ c (Proc.devRef .tc main_arg6)) (W7 m ρ c (Proc.devRef .tc main_v64)) = _
    rw [at7_v62 m ρ c, at7_v63 m ρ c, at7_arg6 m ρ c, at7_v64 m ρ c]
    exact (Cert.ReferenceIdeal.Dense.dense2 _ _ _ _ _ _ _ _ _ (fun k => Cert.ReferenceIdeal.Dense.row_of_vec _ _ k) _
      (Cert.ReferenceIdeal.Dense.row_of_vec _ _ 0)).symm))

end Cert.KernelIdeal.Whole

end
-- ==== Proof.lean ====
/-
  A two-layer graph convolution with a linear head, over the extended reals: the kernel's program and the jnp
  reference end with the same result array.

  Both programs build the same edge lists (the given edges with one self loop per node appended), count in-degrees
  by a scatter-add of ones, weight each edge by the product of its endpoints' reciprocal square-root degrees (zero
  where a degree is not positive), and for each layer gather the transformed source rows, scale them by the edge
  weights and scatter-add them into the target rows. They differ only in where the dense maps run. The reference
  takes a host matrix product, adds the bias, clamps at zero, and so on; the kernel's program hands each dense map
  to a kernel call that walks the hundred thousand nodes in ten blocks of ten thousand rows, the second and third
  calls adding the previous layer's bias and clamping at zero before their product, the third adding the output bias
  after it. A node's output row depends on that node's input row only, so the blocks assemble to the whole-array
  product; a product into a zero accumulator is the plain sum Σ_k l[r, k] · w[k, j], as the host's is; and the
  narrowing of the operands to a shorter float format is the identity on extended reals. No law beyond that is used:
  the sums are the same sums over the same index sets in the same order, so finiteness of the inputs is never needed.
  The reference computes the edge weights once per layer; as a term of the edge list the second computation is the
  first.

  The modules: the specification of the three dense layers (Spec); each kernel call's output array as its layer of
  the call's input arrays (Region0, Region1, Region2); the host stretches between the calls, each read against the
  reference's stages (HostStages); the reference's dense stages as the same layers (RefStages); the kernel's run
  followed from launch to return (KernelValue); and the run of the kernel's program with its result named
  (KernelRun) beside the reference's run (RefRun, RefRead).
-/
import proofs.«166586_j61933428417025_1_alg».proof.Defs
import proofs.«166586_j61933428417025_1_alg».proof.Proof.Gen.Kernel
import proofs.«166586_j61933428417025_1_alg».proof.Proof.Gen.Kernel.Frame
import proofs.«166586_j61933428417025_1_alg».proof.Proof.Gen.KernelIdeal
import proofs.«166586_j61933428417025_1_alg».proof.Proof.Gen.KernelIdeal.Frame
import proofs.«166586_j61933428417025_1_alg».proof.Proof.Gen.ReferenceIdeal
import proofs.«166586_j61933428417025_1_alg».proof.Proof.Gen.Pre_finite_inputs
import proofs.«166586_j61933428417025_1_alg».proof.Proof.KernelRun
import proofs.«166586_j61933428417025_1_alg».proof.Proof.KernelValue
import proofs.«166586_j61933428417025_1_alg».proof.Proof.RefRun
import proofs.«166586_j61933428417025_1_alg».proof.Proof.RefRead
import Idealize.ShloMosaic.Adequacy
import Idealize.ShloMosaic.Init

noncomputable section

namespace Cert.Proof

open Idealize.ShloMosaic Idealize.SL.Sem

/-- The kernel's program as printed runs and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing, so there is nothing to preserve. -/
theorem preserves : Cert.preserves_Kernel_KernelIdeal := trivial

/-- From memories that agree on the eight arguments both programs end with the reference's last stage of those
    arguments in their result arrays: the kernel's program by the walk through its segments, the reference by its run. -/
theorem algebraic : Cert.algebraic_KernelIdeal_ReferenceIdeal := by
  intro m ρ m' ρ' _ hagree
  refine ⟨fun c => Cert.ReferenceIdeal.ReadP.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.Whole.result m ρ c), (h c).2⟩)
      (Cert.KernelIdeal.Gen.run_named m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v102_eq]
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
